-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S100000x1 : Shape := ⟨2, ![100000, 1]⟩
abbrev S1600000 : Shape := ⟨1, ![1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_

variable [Facts]

def fn {F : FTy → Type} [FloatOps F] (main_arg0 : FVec F S100000x32 .f32) (main_arg1 : FVec F S100000x1 .f32) (main_arg2 : FVec F S100000x1 .f32) (main_arg3 : IVec S1600000 32) (main_arg4 : IVec S1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  main_v13
-- ==== Kernel.lean ====
abbrev S100000x32 : Shape := ⟨2, ![100000, 32]⟩
abbrev S100000x1 : Shape := ⟨2, ![100000, 1]⟩
abbrev S1600000 : Shape := ⟨1, ![1600000]⟩
abbrev S5000x32 : Shape := ⟨2, ![5000, 32]⟩
abbrev S5000x1 : Shape := ⟨2, ![5000, 1]⟩
abbrev S_ : Shape := ⟨0, ![]⟩
abbrev S1600000x1 : Shape := ⟨2, ![1600000, 1]⟩
abbrev S1600000x32 : Shape := ⟨2, ![1600000, 32]⟩

abbrev nBuf : Space → Nat
  | .hbm => 20
  | .vmem => 12
  | .smem => 0
  | _ => 0

abbrev bufTy : (tb : Table) → Fin (tcTables nBuf tb) → BufTy
  | .hbm, ⟨0, _⟩ => ⟨S100000x32, .f32⟩
  | .hbm, ⟨1, _⟩ => ⟨S100000x1, .f32⟩
  | .hbm, ⟨2, _⟩ => ⟨S100000x1, .f32⟩
  | .hbm, ⟨3, _⟩ => ⟨S1600000, .i32⟩
  | .hbm, ⟨4, _⟩ => ⟨S1600000, .i32⟩
  | .hbm, ⟨5, _⟩ => ⟨S100000x32, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x32, .f32⟩
  | .hbm, ⟨15, _⟩ => ⟨S_, .f32⟩
  | .hbm, ⟨16, _⟩ => ⟨S100000x32, .f32⟩
  | .hbm, ⟨17, _⟩ => ⟨S1600000x1, .i32⟩
  | .hbm, ⟨18, _⟩ => ⟨S100000x32, .f32⟩
  | .hbm, ⟨19, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S5000x1, .f32⟩
  | .local _ .vmem, ⟨3, _⟩ => ⟨S5000x1, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x1, .f32⟩
  | .local _ .vmem, ⟨9, _⟩ => ⟨S5000x1, .f32⟩
  | .local _ .vmem, ⟨10, _⟩ => ⟨S5000x32, .f32⟩
  | .local _ .vmem, ⟨11, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x32_S5000x32_0_0 : ∀ a, (![0, 0] : Fin 2 → Nat) a + S5000x32.size a ≤ S5000x32.size a
  h_S5000x32 : 0 < S5000x32.numel
  inb_S5000x1_S5000x1_0_0 : ∀ a, (![0, 0] : Fin 2 → Nat) a + S5000x1.size a ≤ S5000x1.size a
  h_S5000x1 : 0 < S5000x1.numel
  broadcasts_S5000x1_S5000x32 : S5000x1.Broadcasts S5000x32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S5000x32_S5000x32 : S5000x32.ShapeCasts S5000x32
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x32 : Shape := ⟨2, ![100000, 32]⟩
abbrev S100000x1 : Shape := ⟨2, ![100000, 1]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩

abbrev nBuf : Space → Nat
  | .hbm => 22
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S100000x1, .f32⟩
  | .hbm, ⟨2, _⟩ => ⟨S100000x1, .f32⟩
  | .hbm, ⟨3, _⟩ => ⟨S1600000, .i32⟩
  | .hbm, ⟨4, _⟩ => ⟨S1600000, .i32⟩
  | .hbm, ⟨5, _⟩ => ⟨S100000x32, .f32⟩
  | .hbm, ⟨6, _⟩ => ⟨S100000x32, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .f32⟩
  | .hbm, ⟨16, _⟩ => ⟨S_, .f32⟩
  | .hbm, ⟨17, _⟩ => ⟨S100000x32, .f32⟩
  | .hbm, ⟨18, _⟩ => ⟨S1600000x1, .i32⟩
  | .hbm, ⟨19, _⟩ => ⟨S100000x32, .f32⟩
  | .hbm, ⟨20, _⟩ => ⟨S100000x32, .f32⟩
  | .hbm, ⟨21, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S100000x1_S100000x32_0_1 : S100000x1.BroadcastsInDim S100000x32 (![0, 1] : Fin 2 → Fin S100000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.RowScale.lean ====
/-
  Scaling the rows of a [100000, 32] array by a [100000, 1] column: `rowScale x s` has entry (r, l) = x (r, l) · s (r, 0).
  Both kernel bodies compute, on a block of 5000 rows, the block's entries times the block's column of scales, the
  scale of a row broadcast across its 32 lanes (the second body first passes its block through a shape cast to the
  same shape, which changes nothing): `pay0_apply`, `pay1_apply`.
-/
import proofs.«151372_j91250875171357_1_alg».proof.Proof.Gen.KernelIdeal.Skeleton
import Idealize.ShloMosaic.Lib.Pipeline.Value

noncomputable section

namespace Cert.KernelIdeal.RowScale

open Cert.KernelIdeal Cert.KernelIdeal.Gen
open Idealize.ShloMosaic Idealize.SL.Sem

variable {F : FTy → Type} [FloatOps F]

/-- The entry of the scale column that multiplies entry `i` of the array: same row, lane 0. -/
def col (i : S100000x32.Idx) : S100000x1.Idx := fun a => match a with
  | ⟨0, _⟩ => ⟨(i 0).val, (i 0).isLt⟩
  | ⟨1, _⟩ => ⟨0, Nat.one_pos⟩

/-- The same inside a block of 5000 rows. -/
def bcol (j : S5000x32.Idx) : S5000x1.Idx := fun a => match a with
  | ⟨0, _⟩ => ⟨(j 0).val, (j 0).isLt⟩
  | ⟨1, _⟩ => ⟨0, Nat.one_pos⟩

/-- Every row of `x` multiplied by that row's scale: entry (r, l) is x (r, l) · s (r, 0). -/
def rowScale (x : S100000x32.Idx → Elt F .f32) (s : S100000x1.Idx → Elt F .f32) : S100000x32.Idx → Elt F .f32 :=
  fun i => FloatOps.mulf (x i) (s (col i))

theorem hz : (![0, 0] : Fin 2 → Nat) = fun _ => 0 := funext fun a => by fin_cases a <;> rfl

/-- A column of 5000 scales broadcast across 32 lanes, read at a block index, is the scale of the index's row. -/
theorem bcast_block_apply {α : Type} (x1 : S5000x1.Idx → α) (j : S5000x32.Idx) :
    broadcastTo S5000x32 x1 broadcasts_S5000x1_S5000x32 j = x1 (bcol j) :=
  broadcastTo_apply x1 broadcasts_S5000x1_S5000x32 j (bcol j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])

/-- The first body's stored value at a block index: the input block's entry times its row's scale. -/
theorem pay0_apply (x0 : Vec F S5000x32 .f32) (x1 : Vec F S5000x1 .f32) (j : S5000x32.Idx) :
    k0_pay1 x0 x1 j = FloatOps.mulf (x0 j) (x1 (bcol j)) := by
  unfold k0_pay1
  show FloatOps.mulf (x0 j) (broadcastTo S5000x32 x1 broadcasts_S5000x1_S5000x32 j) = _
  rw [bcast_block_apply]

/-- The second body's stored value at a block index: the same product (its shape cast is to the block's own shape). -/
theorem pay1_apply (x0 : Vec F S5000x32 .f32) (x1 : Vec F S5000x1 .f32) (j : S5000x32.Idx) :
    k1_pay1 x0 x1 j = FloatOps.mulf (x0 j) (x1 (bcol j)) := by
  unfold k1_pay1
  rw [shapeCast_self]
  show FloatOps.mulf (x0 j) (broadcastTo S5000x32 x1 broadcasts_S5000x1_S5000x32 j) = _
  rw [bcast_block_apply]

end Cert.KernelIdeal.RowScale

end
-- ==== Proof.Region0Value.lean ====
/-
  What region 0 (the first scaling call) leaves in its output array, for any contents `V` the region is entered
  from: the twenty blocks of 5000 rows tile the 100000 rows, point `t` writes back block `t` of the row-scaled array,
  so the output array ends at `rowScale` of the region's two input arrays.
-/
import proofs.«151372_j91250875171357_1_alg».proof.Proof.Gen.KernelIdeal.Frame
import proofs.«151372_j91250875171357_1_alg».proof.Proof.RowScale
import Idealize.ShloMosaic.Lib.Pipeline.Value

set_option maxRecDepth 16384

noncomputable section

namespace Cert.KernelIdeal.RowScale

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The index maps of region 0, decided over its 20 grid points: every window's block index is the point's number
    on the row axis and zero on the lane axis. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the row-scaled array, the arrays read as the region finds them. -/
theorem flushed0 (c : Dev nD) (t : Fin cfg0.N) :
    (dat0 V c).flushed 2 t = ((cfg0.win 2).blk t).view.read (Elt F) (rowScale (V c main_arg0) (V c main_arg1)) := by
  show (cfg0.win 2).cut (grid0.coords t) ((dat0 V c).after 2 t) = _
  rw [after0_2]
  unfold out0_2
  rw [View.canon_unit_zero hz]
  simp only [View.ld_unit_zero (S := S5000x32) hz, View.ld_unit_zero (S := S5000x1) hz]
  obtain ⟨e0, e1, e2, e3, e4, e5⟩ := idx_facts0 t
  funext j
  refine (pay0_apply (F := F) (iblk0 V c 0 t) (iblk0 V c 1 t) j).trans ?_
  show FloatOps.mulf (V c main_arg0 (((cfg0.win 0).blk t).view.emb j)) (V c main_arg1 (((cfg0.win 1).blk t).view.emb (bcol j)))
    = FloatOps.mulf (V c main_arg0 (((cfg0.win 2).blk t).view.emb j)) (V c main_arg1 (col (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 32 + 1 * (j 1).val = win0_2.index t (1 : Fin 2) * 32 + 1 * (j 1).val; omega
  have h1 : ((cfg0.win 1).blk t).view.emb (bcol j) = col (((cfg0.win 2).blk t).view.emb j) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  rw [h0, h1]

/-- An index of the array lies in point `t`'s output block iff each coordinate lies in the block's range. -/
theorem mem_blk0 (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v0).slice (win0_2.rect t)).set ↔ _
  rw [View.set_slice_whole, Rect.mem_set_unit]
  exact Iff.rfl

/-- The twenty row blocks tile the array: row `r` lies in the block of point `r / 5000`. -/
theorem cover0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  have hlt : (i 0).val / 5000 < cfg0.N := by rw [hN]; omega
  obtain ⟨e0, e1, e2, e3, e4, e5⟩ := idx_facts0 ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [mem_blk0]
  intro a
  match a with
  | ⟨0, _⟩ => show win0_2.index ⟨(i 0).val / 5000, hlt⟩ (0 : Fin 2) * 5000 ≤ (i 0).val ∧ (i 0).val < win0_2.index ⟨(i 0).val / 5000, hlt⟩ (0 : Fin 2) * 5000 + 5000; omega
  | ⟨1, _⟩ => show win0_2.index ⟨(i 0).val / 5000, hlt⟩ (1 : Fin 2) * 32 ≤ (i 1).val ∧ (i 1).val < win0_2.index ⟨(i 0).val / 5000, hlt⟩ (1 : Fin 2) * 32 + 32; omega

/-- After region 0 its output array holds the row-scaled input array (the arrays read as the region finds them). -/
theorem final0 (c : Dev nD) : (dat0 V c).arrAt 2 cfg0.N = rowScale (V c main_arg0) (V c main_arg1) :=
  (dat0 V c).arrAt_eq_of_cover 2 (rowScale (V c main_arg0) (V c main_arg1)) (fun t _ => flushed0 V c t) cover0

end Cert.KernelIdeal.RowScale

end
-- ==== Proof.Region1Value.lean ====
/-
  What region 1 (the second scaling call) leaves in its output array, for any contents `V` the region is entered
  from: the twenty blocks of 5000 rows tile the 100000 rows, point `t` writes back block `t` of the row-scaled array,
  so the output array ends at `rowScale` of the region's two input arrays.
-/
import proofs.«151372_j91250875171357_1_alg».proof.Proof.Gen.KernelIdeal.Frame
import proofs.«151372_j91250875171357_1_alg».proof.Proof.RowScale
import Idealize.ShloMosaic.Lib.Pipeline.Value

set_option maxRecDepth 16384

noncomputable section

namespace Cert.KernelIdeal.RowScale

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The index maps of region 1, decided over its 20 grid points: every window's block index is the point's number
    on the row axis and zero on the lane axis. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the row-scaled array, the arrays read as the region finds them. -/
theorem flushed1 (c : Dev nD) (t : Fin cfg1.N) :
    (dat1 V c).flushed 2 t = ((cfg1.win 2).blk t).view.read (Elt F) (rowScale (V c main_v10) (V c main_arg2)) := by
  show (cfg1.win 2).cut (grid1.coords t) ((dat1 V c).after 2 t) = _
  rw [after1_2]
  unfold out1_2
  rw [View.canon_unit_zero hz]
  simp only [View.ld_unit_zero (S := S5000x32) hz, View.ld_unit_zero (S := S5000x1) hz]
  obtain ⟨e0, e1, e2, e3, e4, e5⟩ := idx_facts1 t
  funext j
  refine (pay1_apply (F := F) (iblk1 V c 0 t) (iblk1 V c 1 t) j).trans ?_
  show FloatOps.mulf (V c main_v10 (((cfg1.win 0).blk t).view.emb j)) (V c main_arg2 (((cfg1.win 1).blk t).view.emb (bcol j)))
    = FloatOps.mulf (V c main_v10 (((cfg1.win 2).blk t).view.emb j)) (V c main_arg2 (col (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 32 + 1 * (j 1).val = win1_2.index t (1 : Fin 2) * 32 + 1 * (j 1).val; omega
  have h1 : ((cfg1.win 1).blk t).view.emb (bcol j) = col (((cfg1.win 2).blk t).view.emb j) := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 1 + 1 * 0 = 0; omega
  rw [h0, h1]

/-- An index of the array lies in point `t`'s output block iff each coordinate lies in the block's range. -/
theorem mem_blk1 (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v11).slice (win1_2.rect t)).set ↔ _
  rw [View.set_slice_whole, Rect.mem_set_unit]
  exact Iff.rfl

/-- The twenty row blocks tile the array: row `r` lies in the block of point `r / 5000`. -/
theorem cover1 (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 20 := N_1
  have hlt : (i 0).val / 5000 < cfg1.N := by rw [hN]; omega
  obtain ⟨e0, e1, e2, e3, e4, e5⟩ := idx_facts1 ⟨(i 0).val / 5000, hlt⟩
  have e4' : win1_2.index ⟨(i 0).val / 5000, hlt⟩ (0 : Fin 2) = (i 0).val / 5000 := e4
  refine ⟨⟨(i 0).val / 5000, hlt⟩, flush1_2 _, ?_⟩
  rw [mem_blk1]
  intro a
  match a with
  | ⟨0, _⟩ => show win1_2.index ⟨(i 0).val / 5000, hlt⟩ (0 : Fin 2) * 5000 ≤ (i 0).val ∧ (i 0).val < win1_2.index ⟨(i 0).val / 5000, hlt⟩ (0 : Fin 2) * 5000 + 5000; omega
  | ⟨1, _⟩ => show win1_2.index ⟨(i 0).val / 5000, hlt⟩ (1 : Fin 2) * 32 ≤ (i 1).val ∧ (i 1).val < win1_2.index ⟨(i 0).val / 5000, hlt⟩ (1 : Fin 2) * 32 + 32; omega

/-- After region 1 its output array holds the row-scaled input array (the arrays read as the region finds them). -/
theorem final1 (c : Dev nD) : (dat1 V c).arrAt 2 cfg1.N = rowScale (V c main_v10) (V c main_arg2) :=
  (dat1 V c).arrAt_eq_of_cover 2 (rowScale (V c main_v10) (V c main_arg2)) (fun t _ => flushed1 V c t) cover1

end Cert.KernelIdeal.RowScale

end
-- ==== Proof.KernelValue.lean ====
/-
  The value of the kernel program's result array, as one function of the argument arrays.
  The first region leaves `h = rowScale node_f out_d` (every row of the features times the row's out-degree scale);
  the host stretch between the regions gathers the rows of `h` at the wrapped source indices and scatter-adds them at
  the destination indices into a zero array (`aggregate`); the second region leaves `rowScale agg in_dg`.
  The host stretch is carried as ONE function of the array it reads: nothing here looks inside the gather or the
  scatter-add.
-/
import proofs.«151372_j91250875171357_1_alg».proof.Proof.KernelRun
import proofs.«151372_j91250875171357_1_alg».proof.Proof.Region0Value
import proofs.«151372_j91250875171357_1_alg».proof.Proof.Region1Value
import Idealize.ShloMosaic.Lib.StableHlo.Run

set_option maxRecDepth 16384

noncomputable section

namespace Cert.KernelIdeal.Named

open Cert.KernelIdeal Cert.KernelIdeal.Gen Cert.KernelIdeal.RowScale
open Idealize.ShloMosaic Idealize.ShloMosaic.TcCoe Idealize.SL.Sem Idealize.ShloMosaic.StableHlo

variable {F : FTy → Type} [FloatOps F]

/-- The host stretch between the two regions, as a function of the array `h` it gathers from and of the two index
    arrays: a negative source index is wrapped by 100000, row `e` of the messages is row `src e` of `h`, and the
    messages are added into a zero array at the rows `dst` names. -/
def aggregate (h : (⟨S100000x32, .f32⟩ : BufTy).Contents (Elt F)) (src dst : (⟨S1600000, .i32⟩ : BufTy).Contents (Elt F)) :
    (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 dst)
    (Host.gather gather_S100000x32_S1600000x1_S1600000x32_1_0_n_n_0_1_132 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- After the host stretch, from any contents `W`, the array the second region reads is `aggregate` of the first
    region's output and the two index arguments as `W` has them. -/
theorem after_host_v10 (W : Valuation τ sig (Elt F)) :
    StableHlo.after (hostOps1 (F := F)) W (Proc.devRef .tc main_v10)
      = aggregate (W (Proc.devRef .tc main_v0)) (W (Proc.devRef .tc main_arg3)) (W (Proc.devRef .tc main_arg4)) := by
  after_results <;> rfl

/-- The host stretch does not write the in-degree scales. -/
theorem after_host_arg2 (W : Valuation τ sig (Elt F)) :
    StableHlo.after (hostOps1 (F := F)) W (Proc.devRef .tc main_arg2) = W (Proc.devRef .tc main_arg2) := by
  after_results <;> rfl

variable (m : (ℓ : Loc nD τ sig) → Buf (Elt F) ℓ) (ρ : Dev nD → PrngReg)

/-- The kernel program's result as a function of its arguments. -/
def result (c : Dev nD) : (⟨S100000x32, .f32⟩ : BufTy).Contents (Elt F) :=
  rowScale (aggregate (rowScale (m ((c.tc : Thread nD τ).loc main_arg0)) (m ((c.tc : Thread nD τ).loc main_arg1)))
      (m ((c.tc : Thread nD τ).loc main_arg3)) (m ((c.tc : Thread nD τ).loc main_arg4)))
    (m ((c.tc : Thread nD τ).loc main_arg2))

/-- The contents the run ends with at the result array are `result`: region by region and stretch by stretch,
    each boundary's contents read back to the launch memory. -/
theorem W3_result (c : Dev nD) : W3 m ρ c (Proc.devRef .tc main_v11) = result m c := by
  have h11 : W3 m ρ c (Proc.devRef .tc main_v11) = (dat1 (V2 m ρ) c).arrAt 2 cfg1.N := W3_arr m ρ c 2
  have hv10 : V2 m ρ c main_v10
      = aggregate (W1 m ρ c (Proc.devRef .tc main_v0)) (W1 m ρ c (Proc.devRef .tc main_arg3)) (W1 m ρ c (Proc.devRef .tc main_arg4)) :=
    after_host_v10 (W1 m ρ c)
  have harg2 : V2 m ρ c main_arg2 = m ((c.tc : Thread nD τ).loc main_arg2) :=
    (after_host_arg2 (W1 m ρ c)).trans (W1_of_ne m ρ c main_arg2 (by decide))
  have hv0 : W1 m ρ c (Proc.devRef .tc main_v0)
      = rowScale (m ((c.tc : Thread nD τ).loc main_arg0)) (m ((c.tc : Thread nD τ).loc main_arg1)) :=
    (W1_arr m ρ c 2).trans (final0 (V0 m ρ) c)
  have h3 : W1 m ρ c (Proc.devRef .tc main_arg3) = m ((c.tc : Thread nD τ).loc main_arg3) := W1_of_ne m ρ c main_arg3 (by decide)
  have h4 : W1 m ρ c (Proc.devRef .tc main_arg4) = m ((c.tc : Thread nD τ).loc main_arg4) := W1_of_ne m ρ c main_arg4 (by decide)
  rw [h11, final1 (V2 m ρ) c, hv10, harg2, hv0, h3, h4]
  rfl

/-- The kernel program's run, read: the result array ends at `result`, the arguments as launched. -/
theorem run : θ_run defs (onTc (τ := τ) (main (F := F))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W3_result m ρ c), (h c).2⟩) (run_named m ρ)

end Cert.KernelIdeal.Named

end
-- ==== Proof.RefValue.lean ====
/-
  The reference program's result is the kernel program's function of the arguments.
  The reference multiplies the features by the out-degree column broadcast along the lanes, gathers and scatter-adds
  exactly as the kernel program's host stretch does, and multiplies by the in-degree column broadcast along the lanes.
  A product with a broadcast column is `rowScale`, entry by entry; the gather and the scatter-add are the same
  operations with the same dimension numbers on both sides and are never opened.
-/
import proofs.«151372_j91250875171357_1_alg».proof.Proof.Gen.ReferenceIdeal.Run
import proofs.«151372_j91250875171357_1_alg».proof.Proof.Gen.ReferenceIdeal.Read
import proofs.«151372_j91250875171357_1_alg».proof.Proof.KernelValue
import Idealize.ShloMosaic.Lib.Pipeline.Value

noncomputable section

namespace Cert.ReferenceIdeal.RefValue

open Cert.ReferenceIdeal Cert.ReferenceIdeal.Gen
open Idealize.ShloMosaic Idealize.ShloMosaic.TcCoe Idealize.SL.Sem Idealize.ShloMosaic.StableHlo
open Cert.KernelIdeal.RowScale (rowScale col)
open Cert.KernelIdeal.Named (aggregate)

variable {F : FTy → Type} [FloatOps F]

/-- Multiplying an array by a column broadcast along the lanes scales each row by the row's entry of the column. -/
theorem mulf_bcast (a : (⟨S100000x32, .f32⟩ : BufTy).Contents (Elt F)) (s : (⟨S100000x1, .f32⟩ : BufTy).Contents (Elt F)) :
    mulf a (broadcastInDim S100000x32 ![0, 1] bcast_S100000x1_S100000x32_0_1 s) = rowScale a s := by
  funext i
  show FloatOps.mulf (a i) (broadcastInDim S100000x32 ![0, 1] bcast_S100000x1_S100000x32_0_1 s i) = FloatOps.mulf (a i) (s (col i))
  rw [broadcastInDim_apply _ bcast_S100000x1_S100000x32_0_1 s i (col i) (fun b => match b with
    | ⟨0, _⟩ => by show (i 0).val = if (100000 : Nat) = 1 then 0 else (i 0).val; rw [if_neg (by decide)]
    | ⟨1, _⟩ => by show 0 = if (1 : Nat) = 1 then 0 else (i 1).val; rw [if_pos rfl])]

/-- The two programs' scatter and gather dimension numbers are the same records. -/
theorem scatter_eq : scatter_S100000x32_S1600000x1_S1600000x32_1_0_0_1 = Cert.KernelIdeal.scatter_S100000x32_S1600000x1_S1600000x32_1_0_0_1 := rfl
theorem gather_eq : gather_S100000x32_S1600000x1_S1600000x32_1_0_n_n_0_1_132 = Cert.KernelIdeal.gather_S100000x32_S1600000x1_S1600000x32_1_0_n_n_0_1_132 := rfl

/-- The reference's result term is the kernel program's function of the same five arrays. -/
theorem ref_result (x0 : (⟨S100000x32, .f32⟩ : BufTy).Contents (Elt F)) (x1 x2 : (⟨S100000x1, .f32⟩ : BufTy).Contents (Elt F)) (x3 x4 : (⟨S1600000, .i32⟩ : BufTy).Contents (Elt F)) :
    mulf (Host.scatterAdd scatter_S100000x32_S1600000x1_S1600000x32_1_0_0_1 (broadcastInDim S100000x32 ![] bcast_S_S100000x32 (constant S_ .f32 0x00000000#32)) (broadcastInDim S1600000x1 ![0] bcast_S1600000_S1600000x1_0 (x4)) (Host.gather gather_S100000x32_S1600000x1_S1600000x32_1_0_n_n_0_1_132 (mulf (x0) (broadcastInDim S100000x32 ![0, 1] bcast_S100000x1_S100000x32_0_1 (x1))) (broadcastInDim S1600000x1 ![0] bcast_S1600000_S1600000x1_0 (select (cmpi .slt (x3) (broadcastInDim S1600000 ![] bcast_S_S1600000 (constantI S_ 32 0#32))) (addi (x3) (broadcastInDim S1600000 ![] bcast_S_S1600000 (constantI S_ 32 100000#32))) (x3))))) (broadcastInDim S100000x32 ![0, 1] bcast_S100000x1_S100000x32_0_1 (x2))
      = rowScale (aggregate (rowScale x0 x1) x3 x4) x2 := by
  rw [mulf_bcast, mulf_bcast, scatter_eq, gather_eq]
  rfl

end Cert.ReferenceIdeal.RefValue

end
-- ==== Proof.lean ====
/-
  The proof of `Cert.Claim`: a graph-convolution layer whose two row-scaling passes are kernels and whose
  gather / scatter-add between them is host code, against the same layer written with plain products.

  Both programs compute  out = rowScale (aggregate (rowScale node_f out_d) src dst) in_dg,  where
  `rowScale x s` has entry (r, l) = x (r, l) · s (r, 0) and `aggregate` gathers rows at the (wrapped) source indices and
  adds them at the destination indices. The kernel side: each scaling call's twenty row blocks tile its output and
  every block is the block of `rowScale` (Proof/Region0Value.lean, Region1Value.lean), the host stretch between
  the calls is `aggregate` of what the first call left (Proof/KernelValue.lean), and the run is the launch over the
  program's three segments with the result array named (Proof/KernelRun.lean). The reference side: a product with
  a column broadcast along the lanes is `rowScale` (Proof/RefValue.lean). No law of arithmetic joins the two sides
  beyond that, so the finiteness of the inputs is never used; the ideal pass rewrote nothing, so `preserves` is `True`.
-/
import proofs.«151372_j91250875171357_1_alg».proof.Defs
import proofs.«151372_j91250875171357_1_alg».proof.Proof.Gen.Kernel
import proofs.«151372_j91250875171357_1_alg».proof.Proof.Gen.Kernel.Frame
import proofs.«151372_j91250875171357_1_alg».proof.Proof.Gen.KernelIdeal
import proofs.«151372_j91250875171357_1_alg».proof.Proof.Gen.KernelIdeal.Frame
import proofs.«151372_j91250875171357_1_alg».proof.Proof.Gen.ReferenceIdeal
import proofs.«151372_j91250875171357_1_alg».proof.Proof.Gen.ReferenceIdeal.Run
import proofs.«151372_j91250875171357_1_alg».proof.Proof.Gen.Pre_finite_inputs
import proofs.«151372_j91250875171357_1_alg».proof.Proof.KernelValue
import proofs.«151372_j91250875171357_1_alg».proof.Proof.RefValue

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the same array: the kernel program's
    `result`, which the reference's composed term equals. -/
theorem algebraic : Cert.algebraic_KernelIdeal_ReferenceIdeal := by
  intro m ρ m' ρ' _ hagree
  refine ⟨fun c => Cert.KernelIdeal.Named.result m c, Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.RefValue.ref_result _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
